-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 9
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S400x128, .f32⟩
  | .local _ .vmem, ⟨8, _⟩ => ⟨S400x128, .f32⟩
  | .local _ .vmem, ⟨9, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 25], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg1 : BitVec 32 := BitVec.ofNat 32 (i 1).val
  let c400_i32 : BitVec 32 := 400#32
  let v20 : BitVec 32 := Scalar.muli arg1 c400_i32
  let v21 : Index := Scalar.indexCast v20
  let c0_14 : Index := 0#32
  ![v21.toNat, 0]
def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  bitsLt_bf16_f32 : FTy.bits .bf16 < FTy.bits .f32
  h_S400x128 : 0 < S400x128.numel
  shapeCasts_S400x128_S400x128 : S400x128.ShapeCasts S400x128
  inb_S400x128_S400x128_0_0 : ∀ a, (![0, 0] : Fin 2 → Nat) a + S400x128.size a ≤ S400x128.size a
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  k0_off1_inb : ∀ i : grid0.Coords, ∀ (k0_h1 : k0_cond1 i = 1#1), ∀ a, (k0_off1 i) a + S400x128.size a ≤ S10000x128.size a
  k0_off1_packedbf16 : ∀ i : grid0.Coords, ∀ (k0_h1 : k0_cond1 i = 1#1), (Rect.unit (s := S10000x128) (k0_off1 i) S400x128.size (k0_off1_inb i k0_h1)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .f32 = 32 ∨ (Rect.block (s := S10000x128) S400x128.size (cc0_transform_6 i) (hinb0_6 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | .hbm, ⟨19, _⟩ => ⟨S_, .f32⟩
  | .hbm, ⟨20, _⟩ => ⟨S10000x128, .f32⟩
  | .hbm, ⟨21, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_cst : Ref sig .tc := ⟨.hbm, 19, rfl⟩
abbrev main_call1_v0 : Ref sig .tc := ⟨.hbm, 20, rfl⟩
abbrev main_v11 : Ref sig .tc := ⟨.hbm, 21, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Kernel.Body.lean ====
/-
  The kernel body, run once per control case, at any float instance.

  The grid has 50 points: the first 25 are the FIRST PASS (one row block of the adjacency each), the last 25 the SECOND.
  A first-pass point loads its 400 × 10000 adjacency block and the whole of X, W₁, b₁, W₂, and stores ONE 400-row slice
  of the carried 10000 × 128 scratch: the slice at rows [400·i, 400·i + 400) of point i. It stores nothing into the
  result window. A second-pass point loads its adjacency block, the WHOLE scratch and b₂, and stores the whole result
  block; the scratch is left as it was.

  Stated here: which points are in which pass, where the result window is idle, a whole buffer read back through the
  whole rectangle, and the two runs, each with its stores named: what the scratch holds afterwards is what it held
  with the point's slice written over it.
-/
import proofs.«135945_g27754078666885_cont_9to1_584_17_alg».proof.Proof.Gen.Kernel.Frame
import proofs.«135945_g27754078666885_cont_9to1_584_17_alg».proof.Proof.Gen.Kernel.Skeleton
import Idealize.ShloMosaic.Lib.WritesUnit
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two passes over the grid -/

/-- The first branch is taken exactly at the first 25 points. -/
theorem hpassA : ∀ t : Fin cfg0.N, k0_cond1 (grid0.coords t) = 1#1 ↔ t.val < 25 :=
  (by decide +kernel : ∀ t : Fin grid0.N, k0_cond1 (grid0.coords t) = 1#1 ↔ t.val < 25)

/-- The second branch is taken exactly at the last 25 points. -/
theorem hpassB : ∀ t : Fin cfg0.N, k0_cond2 (grid0.coords t) = 1#1 ↔ 25 ≤ t.val :=
  (by decide +kernel : ∀ t : Fin grid0.N, k0_cond2 (grid0.coords t) = 1#1 ↔ 25 ≤ t.val)

/-- The row-block coordinate of a point is its position within its pass. -/
theorem coord1 : ∀ t : Fin cfg0.N, ((grid0.coords t) 1).val = t.val % 25 :=
  (by decide +kernel : ∀ t : Fin grid0.N, ((grid0.coords t) 1).val = t.val % 25)

/-- The input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The result window is idle throughout the first pass, -/
theorem idle6_A : ∀ t : Fin cfg0.N, t.val < 25 → cfg0.idle 6 (grid0.coords t) = true := by decide +kernel
/-- and is not written back there (its block index stays 0 until the second pass's first point has run); -/
theorem noFlush6_A : ∀ t : Fin cfg0.N, t.val < 25 → (cfg0.win 6).flush t = false := by decide +kernel
/-- it is live throughout the second pass. -/
theorem live6_B : ∀ t : Fin cfg0.N, 25 ≤ t.val → cfg0.idle 6 (grid0.coords t) = false := by decide +kernel

/-! ## The memrefs the pipeline calls the body with -/

abbrev ms0 (t : Fin cfg0.N) : Memref sig .tc .vmem S400x10000 .f32 := win0_0.stage (cfg0.slots t 0)
abbrev hs0 (t : Fin cfg0.N) : (ms0 t).IsWhole := Facts₀.hstage0_0 ((cfg0.slots t 0).cast Facts₀.nbuf0_0)
abbrev ms1 (t : Fin cfg0.N) : Memref sig .tc .vmem S10000x128 .f32 := win0_1.stage (cfg0.slots t 1)
abbrev hs1 (t : Fin cfg0.N) : (ms1 t).IsWhole := Facts₀.hstage0_1 ((cfg0.slots t 1).cast Facts₀.nbuf0_1)
abbrev ms2 (t : Fin cfg0.N) : Memref sig .tc .vmem S128x128 .f32 := win0_2.stage (cfg0.slots t 2)
abbrev hs2 (t : Fin cfg0.N) : (ms2 t).IsWhole := Facts₀.hstage0_2 ((cfg0.slots t 2).cast Facts₀.nbuf0_2)
abbrev ms3 (t : Fin cfg0.N) : Memref sig .tc .vmem S1x128 .f32 := win0_3.stage (cfg0.slots t 3)
abbrev hs3 (t : Fin cfg0.N) : (ms3 t).IsWhole := Facts₀.hstage0_3 ((cfg0.slots t 3).cast Facts₀.nbuf0_3)
abbrev ms4 (t : Fin cfg0.N) : Memref sig .tc .vmem S128x128 .f32 := win0_4.stage (cfg0.slots t 4)
abbrev hs4 (t : Fin cfg0.N) : (ms4 t).IsWhole := Facts₀.hstage0_4 ((cfg0.slots t 4).cast Facts₀.nbuf0_4)
abbrev ms5 (t : Fin cfg0.N) : Memref sig .tc .vmem S1x128 .f32 := win0_5.stage (cfg0.slots t 5)
abbrev hs5 (t : Fin cfg0.N) : (ms5 t).IsWhole := Facts₀.hstage0_5 ((cfg0.slots t 5).cast Facts₀.nbuf0_5)
abbrev ms6 (t : Fin cfg0.N) : Memref sig .tc .vmem S400x128 .f32 := win0_6.stage (cfg0.slots t 6)
abbrev hs6 (t : Fin cfg0.N) : (ms6 t).IsWhole := Facts₀.hstage0_6 ((cfg0.slots t 6).cast Facts₀.nbuf0_6)
/-- The carried scratch: a whole scoped buffer of the kernel's own. -/
abbrev scM : Memref sig .tc .vmem S10000x128 .bf16 := Memref.whole cc0_scratch0
abbrev hscM : (scM).IsWhole := Memref.isWhole_whole _

/-- The region's class invariant with the scratch as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## A whole buffer read through the whole rectangle -/

/-- Reading a whole memref, held at contents `X`, through the rectangle that is its whole shape gives `X`. -/
theorem readAt_whole {S : Shape} {e : EltTy} (a : Memref sig .tc .vmem S e) (ha : a.IsWhole) (X : S.Idx → Elt F e)
    {off : Fin S.rank → Nat} (hz : off = fun _ => 0) (inb : ∀ a, off a + S.size a ≤ S.size a) :
    View.readAt (Elt F) a.view (Rect.unit (s := S) off S.size inb).toLoadRect (ha.unread X) = X := by
  rw [View.readAt_eq_ld, ha.read_unread]; exact View.ld_unit_zero hz inb X

theorem hz2 : (![0, 0] : Fin 2 → Nat) = fun _ => 0 := funext fun a => by fin_cases a <;> rfl

/-- One store through the whole rectangle, read back, is its payload whatever the buffer held. -/
theorem read_writes_whole {S : Shape} {e : EltTy} (a : Memref sig .tc .vmem S e) (f : a.view.ty.Contents (Elt F))
    {off : Fin S.rank → Nat} (hz : off = fun _ => 0) (inb : ∀ a, off a + S.size a ≤ S.size a)
    (w : (Rect.unit (s := S) off S.size inb).shape.Idx → Elt F e) :
    a.view.read (Elt F) (a.view.writes (Elt F) f [(⟨Rect.unit (s := S) off S.size inb, w⟩ : View.Piece (Elt F) S e)]) = w := by
  funext y
  exact View.read_writes_cons_unit_of_mem a.view f inb w [] y y hz (fun a => (Nat.zero_add _).symm)

/-! ## The two runs -/

/-- What the scratch holds after a first-pass point: what it held (`xs`) with the point's 400-row slice `pay` written
    over rows [400·i, 400·i + 400). -/
def slicePut (i : grid0.Coords) (hc0 : k0_cond1 i = 1#1) (arg9 : Memref sig .tc .vmem S10000x128 .bf16) (harg9 : arg9.IsWhole)
    (xs : Vec F S10000x128 .bf16) (pay : FVec F S400x128 .bf16) : Vec F S10000x128 .bf16 :=
  arg9.view.read (Elt F) (arg9.view.writes (Elt F) (harg9.unread xs)
    [(⟨Rect.unit (s := S10000x128) (k0_off1 i) S400x128.size (Facts₀.k0_off1_inb i hc0), pay⟩ : View.Piece (Elt F) S10000x128 .bf16)])

set_option maxHeartbeats 1000000 in
/-- A FIRST-PASS point (first branch taken, second not), on whole memrefs held at `x0 … x5` (the inputs), `xi6` (the result
    window's buffer) and `xs` (the scratch): the body runs, leaves every window's buffer as it was, and the scratch with the
    slice `k0_pay1 x0 x1 x2 x3 x4` written over its rows. -/
theorem runA (c : Dev nD) (i : grid0.Coords)
    (arg2 : Memref sig .tc .vmem S400x10000 .f32) (harg2 : arg2.IsWhole) (arg3 : Memref sig .tc .vmem S10000x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S128x128 .f32) (harg6 : arg6.IsWhole) (arg7 : Memref sig .tc .vmem S1x128 .f32) (harg7 : arg7.IsWhole)
    (arg8 : Memref sig .tc .vmem S400x128 .f32) (harg8 : arg8.IsWhole) (arg9 : Memref sig .tc .vmem S10000x128 .bf16) (harg9 : arg9.IsWhole)
    (hc0 : k0_cond1 i = 1#1) (hc1 : ¬ k0_cond2 i = 1#1)
    (x0 : Vec F S400x10000 .f32) (x1 : Vec F S10000x128 .f32) (x2 : Vec F S128x128 .f32) (x3 : Vec F S1x128 .f32)
    (x4 : Vec F S128x128 .f32) (x5 : Vec F S1x128 .f32) (xi6 : Vec F S400x128 .f32) (xs : Vec F S10000x128 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xi6 ∗ owns (c : Thread nD τ) arg9 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare xi6
            ∗ owns (c : Thread nD τ) arg9 fullShare (slicePut i hc0 arg9 harg9 xs (k0_pay1 x0 x1 x2 x3 x4))) -∗ K ⟨⟩))
      ⊢ wp frame (wpE (defs₀ (F := F)) Variants.none c none) E (cc0__gcn_body i arg2 harg2 arg3 harg3 arg4 harg4 arg5 harg5 arg6 harg6 arg7 harg7 arg8 harg8 arg9 harg9) K := by
  simp only [cc0__gcn_body_eq_skeleton]; unfold cc0__gcn_body_skel
  unfold slicePut owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hfs
  sl_exec (disch := first | exact hc0 | exact hc1)
  sl_step
  rw [readAt_whole arg2 harg2 x0 hz2, readAt_whole arg3 harg3 x1 hz2, readAt_whole arg4 harg4 x2 hz2,
    readAt_whole arg5 harg5 x3 hz2, readAt_whole arg6 harg6 x4 hz2]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  iexists _; isplitr; · ipureintro; rfl
  iexact HS

set_option maxHeartbeats 1000000 in
/-- A SECOND-PASS point (first branch not taken, second taken), on whole memrefs held at `x0 … x5`, the result window's buffer
    at anything and the scratch at `xs`: the body runs, leaves the inputs' buffers and the scratch as they were, and the result
    window's buffer at `k0_pay2 x0 xs x5`. -/
theorem runB (c : Dev nD) (i : grid0.Coords)
    (arg2 : Memref sig .tc .vmem S400x10000 .f32) (harg2 : arg2.IsWhole) (arg3 : Memref sig .tc .vmem S10000x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S128x128 .f32) (harg6 : arg6.IsWhole) (arg7 : Memref sig .tc .vmem S1x128 .f32) (harg7 : arg7.IsWhole)
    (arg8 : Memref sig .tc .vmem S400x128 .f32) (harg8 : arg8.IsWhole) (arg9 : Memref sig .tc .vmem S10000x128 .bf16) (harg9 : arg9.IsWhole)
    (hc0 : ¬ k0_cond1 i = 1#1) (hc1 : k0_cond2 i = 1#1)
    (x0 : Vec F S400x10000 .f32) (x1 : Vec F S10000x128 .f32) (x2 : Vec F S128x128 .f32) (x3 : Vec F S1x128 .f32)
    (x4 : Vec F S128x128 .f32) (x5 : Vec F S1x128 .f32) (xi6 : Vec F S400x128 .f32) (xs : Vec F S10000x128 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xi6 ∗ owns (c : Thread nD τ) arg9 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (k0_pay2 x0 xs x5)
            ∗ owns (c : Thread nD τ) arg9 fullShare xs) -∗ K ⟨⟩))
      ⊢ wp frame (wpE (defs₀ (F := F)) Variants.none c none) E (cc0__gcn_body i arg2 harg2 arg3 harg3 arg4 harg4 arg5 harg5 arg6 harg6 arg7 harg7 arg8 harg8 arg9 harg9) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hfs
  sl_exec (disch := first | exact hc0 | exact hc1)
  sl_step
  rw [readAt_whole arg2 harg2 x0 hz2, readAt_whole arg9 harg9 xs hz2, readAt_whole arg7 harg7 x5 hz2]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact read_writes_whole arg8 (harg8.unread xi6) hz2 Facts₀.inb_S400x128_S400x128_0_0 (k0_pay2 x0 xs x5)
    iexact H6
  iexists _; isplitr; · ipureintro; exact harg9.read_unread _
  iexact HS

end Cert.Kernel.Hand

end
-- ==== Proof.Kernel.Data.lean ====
/-
  The proof data of the one pipeline, the body obligation, the launch, and the frame, at any float instance.

  What the carried scratch holds is stated against ONE function `sFull` of the scratch's index: rows [400·i, 400·i + 400)
  of `sFull` are the slice the first pass's point i stores (`sliceAt i`: its payload over that point's input blocks).
  The invariant before point n: the scratch holds SOME contents that agree with `sFull` on the rows below 400·n
  (nothing is said before the first point; from point 25 on that is all of `sFull`). A first-pass point extends the
  agreement by its own slice; a second-pass point reads the whole scratch, which is `sFull`, and stores the result block
  `k0_pay2 (adjacency block) sFull (bias row)`. The result window is idle throughout the first pass and is not written
  back there, so what its buffer holds then is never consulted.
-/
import proofs.«135945_g27754078666885_cont_9to1_584_17_alg».proof.Proof.Kernel.Body
import Idealize.ShloMosaic.Lib.ValueIdx

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The input blocks at a point, at their literal types -/

abbrev blk0 (c : Dev nD) (t : Fin cfg0.N) : Vec F S400x10000 .f32 := iblk m c 0 t
abbrev blk1 (c : Dev nD) (t : Fin cfg0.N) : Vec F S10000x128 .f32 := iblk m c 1 t
abbrev blk2 (c : Dev nD) (t : Fin cfg0.N) : Vec F S128x128 .f32 := iblk m c 2 t
abbrev blk3 (c : Dev nD) (t : Fin cfg0.N) : Vec F S1x128 .f32 := iblk m c 3 t
abbrev blk4 (c : Dev nD) (t : Fin cfg0.N) : Vec F S128x128 .f32 := iblk m c 4 t
abbrev blk5 (c : Dev nD) (t : Fin cfg0.N) : Vec F S1x128 .f32 := iblk m c 5 t

/-! ## What the scratch holds -/

/-- The 400-row slice a first-pass point stores: the first pass's payload over that point's input blocks. -/
def sliceAt (c : Dev nD) (t : Fin cfg0.N) : FVec F S400x128 .bf16 :=
  k0_pay1 (blk0 m c t) (blk1 m c t) (blk2 m c t) (blk3 m c t) (blk4 m c t)

theorem rowBlock_lt (j : S10000x128.Idx) : (j 0).val / 400 < cfg0.N := by
  have h : (j 0).val < 10000 := (j 0).isLt
  have hN : cfg0.N = 50 := N_0
  omega

/-- The scratch once the first pass is over: row r is row r mod 400 of the slice of point r / 400. -/
def sFull (c : Dev nD) : Vec F S10000x128 .bf16 := fun j =>
  sliceAt m c ⟨(j 0).val / 400, rowBlock_lt j⟩
    (ValueIdx.ix2 (n0 := 400) (n1 := 128) ⟨(j 0).val % 400, Nat.mod_lt _ (by decide)⟩ ⟨(j 1).val, (j 1).isLt⟩)

/-- `sFull` at an index of row block `t`. -/
theorem sFull_eq (c : Dev nD) (t : Fin cfg0.N) (j : S10000x128.Idx) (h : (j 0).val / 400 = t.val) :
    sFull m c j = sliceAt m c t
      (ValueIdx.ix2 (n0 := 400) (n1 := 128) ⟨(j 0).val % 400, Nat.mod_lt _ (by decide)⟩ ⟨(j 1).val, (j 1).isLt⟩) := by
  unfold sFull
  have e : (⟨(j 0).val / 400, rowBlock_lt j⟩ : Fin cfg0.N) = t := Fin.ext h
  rw [e]

/-- The scratch agrees with `sFull` on the rows below 400·n. -/
def Good (c : Dev nD) (n : ℕ) (xs : Vec F S10000x128 .bf16) : Prop :=
  ∀ j : S10000x128.Idx, (j 0).val < 400 * n → xs j = sFull m c j

theorem good_zero (c : Dev nD) (xs : Vec F S10000x128 .bf16) : Good m c 0 xs := fun j hj => by omega

/-- From point 25 on the scratch IS `sFull`. -/
theorem good_full (c : Dev nD) {n : ℕ} (hn : 25 ≤ n) {xs : Vec F S10000x128 .bf16} (hg : Good m c n xs) : xs = sFull m c :=
  funext fun j => hg j (by have h : (j 0).val < 10000 := (j 0).isLt; omega)

theorem good_sFull (c : Dev nD) (n : ℕ) : Good m c n (sFull m c) := fun _ _ => rfl

/-- A first-pass point extends the agreement by its own slice: inside the slice's rows the new contents are the slice,
    below them they are what they were. -/
theorem good_step (c : Dev nD) (t : Fin cfg0.N) (ht : t.val < 25) (hc0 : k0_cond1 (grid0.coords t) = 1#1)
    {xs : Vec F S10000x128 .bf16} (hg : Good m c t.val xs) :
    Good m c (t.val + 1) (slicePut (grid0.coords t) hc0 scM hscM xs (sliceAt m c t)) := by
  intro j hj
  have hc1 : ((grid0.coords t) 1).val = t.val := by rw [coord1 t]; omega
  unfold slicePut
  by_cases hin : 400 * t.val ≤ (j 0).val
  · have hdiv : (j 0).val / 400 = t.val := by omega
    rw [sFull_eq m c t j hdiv]
    exact View.read_writes_cons_unit_of_mem scM.view (hscM.unread xs) (Facts₀.k0_off1_inb (grid0.coords t) hc0) (sliceAt m c t) [] j
      (ValueIdx.ix2 (n0 := 400) (n1 := 128) ⟨(j 0).val % 400, Nat.mod_lt _ (by decide)⟩ ⟨(j 1).val, (j 1).isLt⟩)
      (k0_off1_eq (grid0.coords t))
      (fun a => by
        match a with
        | ⟨0, _⟩ => show (j 0).val = 400 * ((grid0.coords t) 1).val + (j 0).val % 400; rw [hc1]; omega
        | ⟨1, _⟩ => show (j 1).val = 0 + (j 1).val; omega)
  · have hlt : (j 0).val < 400 * t.val := by omega
    rw [View.read_writes_cons_unit_of_not_mem scM.view (hscM.unread xs) (Facts₀.k0_off1_inb (grid0.coords t) hc0) (sliceAt m c t) [] j
      (k0_off1_eq (grid0.coords t)) 0 (Or.inl (by show (j 0).val < 400 * ((grid0.coords t) 1).val; rw [hc1]; exact hlt))]
    rw [View.writes_nil, hscM.read_unread]
    exact hg j hlt

/-- The region invariant before point `n`: the scratch at some contents that agree with `sFull` below row 400·n, and the
    generator register at some state. -/
def PhiS (c : Dev nD) (n : ℕ) : sProp 𝕄 :=
  iprop(iprop(∃ xs, ⌜Good m c n xs⌝ ∗ owns (c : Thread nD τ) scM fullShare xs) ∗ (∃ r, prngReg c r))

/-! ## The pipeline's proof data -/

/-- The arrays as the region finds them; after the body at point `t` each input's buffer at its block and the result
    window's at the second pass's payload over `sFull` (at a first-pass point the window is idle: a placeholder there). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay2 (blk0 m c t) (sFull m c) (blk5 m c t)
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) :
    (dats m 0 c).after 6 t = k0_pay2 (blk0 m c t) (sFull m c) (blk5 m c t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1600000 in
/-- The body at any point: a point of the first pass runs by `runA` and extends the scratch's agreement by its slice
    (`good_step`); a point of the second finds the scratch at `sFull` (`good_full`) and runs by `runB`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  unfold PhiS
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  by_cases h0 : t.val < 25
  · rw [Dat.leavesExact_idle (dats m 0 c) 6 t (idle6_A t h0) (noFlush6_A t h0)]
    iintro ⟨⟨⟨%xs, %hg, HS⟩, Hg⟩, Ho, ⟨%d0, H0⟩, ⟨%d1, H1⟩, ⟨%d2, H2⟩, ⟨%d3, H3⟩, ⟨%d4, H4⟩, ⟨%d5, H5⟩, ⟨%d6, H6⟩⟩
    iapply (runA c (grid0.coords t) (ms0 t) (hs0 t) (ms1 t) (hs1 t) (ms2 t) (hs2 t) (ms3 t) (hs3 t) (ms4 t) (hs4 t) (ms5 t) (hs5 t)
      (ms6 t) (hs6 t) scM hscM ((hpassA t).mpr h0) (fun h => absurd ((hpassB t).mp h) (by omega))
      (iblk m c 0 t) (iblk m c 1 t) (iblk m c 2 t) (iblk m c 3 t) (iblk m c 4 t) (iblk m c 5 t) ((dats m 0 c).before 6 t d6) xs Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hg]
    · isplitl [HS]
      · iexists _; isplitr; · ipureintro; exact good_step m c t h0 ((hpassA t).mpr h0) hg
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have h1 : 25 ≤ t.val := by omega
    rw [show (dats m 0 c).leavesExact 6 t = owns (c : Thread nD τ) (ms6 t) fullShare ((dats m 0 c).after 6 t) from by
      unfold Dat.leavesExact; rw [live6_B t h1], after6]
    iintro ⟨⟨⟨%xs, %hg, HS⟩, Hg⟩, Ho, ⟨%d0, H0⟩, ⟨%d1, H1⟩, ⟨%d2, H2⟩, ⟨%d3, H3⟩, ⟨%d4, H4⟩, ⟨%d5, H5⟩, ⟨%d6, H6⟩⟩
    obtain rfl := good_full m c h1 hg
    iapply (runB c (grid0.coords t) (ms0 t) (hs0 t) (ms1 t) (hs1 t) (ms2 t) (hs2 t) (ms3 t) (hs3 t) (ms4 t) (hs4 t) (ms5 t) (hs5 t)
      (ms6 t) (hs6 t) scM hscM (fun h => absurd ((hpassA t).mp h) h0) ((hpassB t).mpr h1)
      (iblk m c 0 t) (iblk m c 1 t) (iblk m c 2 t) (iblk m c 3 t) (iblk m c 4 t) (iblk m c 5 t) ((dats m 0 c).before 6 t d6) (sFull m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hg]
    · isplitl [HS]
      · iexists _; isplitr; · ipureintro; exact good_sFull m c (t.val + 1)
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is asked of the scratch there. -/
theorem hin (c : Dev nD) : Pipeline.ΦA spec0 c ⊢ (dats m 0 c).Φ 0 := by
  rw [show (dats m 0 c).Φ 0 = PhiS m c 0 from rfl, PhiA0_eq]
  unfold PhiS
  iintro ⟨⟨%d, HS⟩, Hg⟩
  isplitl [HS]
  · iexists d; isplitr; · ipureintro; exact good_zero m c d
    iexact HS
  iexact Hg

/-- After the last point the invariant gives the class's back: what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨⟨%xs, %hg, HS⟩, Hg⟩
  isplitl [HS]
  · iexists xs; iexact HS
  iexact Hg

/-! ## The run and the frame -/

set_option backward.isDefEq.respectTransparency.types false in
/-- Every weakly fair execution of @main terminates, and every final state has every array of the pipeline at what the
    library computes from the proof data (an input its entry contents, the result those overwritten by what the body left
    at each write-back) and every other unscoped buffer at its contents at the region's entry. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: @main runs, terminates without a fault, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Hand

end
-- ==== Proof.KernelIdeal.Body.lean ====
/-
  The kernel body, run once per control case, at any float instance.

  The grid has 50 points: the first 25 are the FIRST PASS (one row block of the adjacency each), the last 25 the SECOND.
  A first-pass point loads its 400 × 10000 adjacency block and the whole of X, W₁, b₁, W₂, and stores ONE 400-row slice
  of the carried 10000 × 128 scratch: the slice at rows [400·i, 400·i + 400) of point i. It stores nothing into the
  result window. A second-pass point loads its adjacency block, the WHOLE scratch and b₂, and stores the whole result
  block; the scratch is left as it was.

  Stated here: which points are in which pass, where the result window is idle, a whole buffer read back through the
  whole rectangle, and the two runs, each with its stores named: what the scratch holds afterwards is what it held
  with the point's slice written over it.
-/
import proofs.«135945_g27754078666885_cont_9to1_584_17_alg».proof.Proof.Gen.KernelIdeal.Frame
import proofs.«135945_g27754078666885_cont_9to1_584_17_alg».proof.Proof.Gen.KernelIdeal.Skeleton
import Idealize.ShloMosaic.Lib.WritesUnit
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two passes over the grid -/

/-- The first branch is taken exactly at the first 25 points. -/
theorem hpassA : ∀ t : Fin cfg0.N, k0_cond1 (grid0.coords t) = 1#1 ↔ t.val < 25 :=
  (by decide +kernel : ∀ t : Fin grid0.N, k0_cond1 (grid0.coords t) = 1#1 ↔ t.val < 25)

/-- The second branch is taken exactly at the last 25 points. -/
theorem hpassB : ∀ t : Fin cfg0.N, k0_cond2 (grid0.coords t) = 1#1 ↔ 25 ≤ t.val :=
  (by decide +kernel : ∀ t : Fin grid0.N, k0_cond2 (grid0.coords t) = 1#1 ↔ 25 ≤ t.val)

/-- The row-block coordinate of a point is its position within its pass. -/
theorem coord1 : ∀ t : Fin cfg0.N, ((grid0.coords t) 1).val = t.val % 25 :=
  (by decide +kernel : ∀ t : Fin grid0.N, ((grid0.coords t) 1).val = t.val % 25)

/-- The input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The result window is idle throughout the first pass, -/
theorem idle6_A : ∀ t : Fin cfg0.N, t.val < 25 → cfg0.idle 6 (grid0.coords t) = true := by decide +kernel
/-- and is not written back there (its block index stays 0 until the second pass's first point has run); -/
theorem noFlush6_A : ∀ t : Fin cfg0.N, t.val < 25 → (cfg0.win 6).flush t = false := by decide +kernel
/-- it is live throughout the second pass. -/
theorem live6_B : ∀ t : Fin cfg0.N, 25 ≤ t.val → cfg0.idle 6 (grid0.coords t) = false := by decide +kernel

/-! ## The memrefs the pipeline calls the body with -/

abbrev ms0 (t : Fin cfg0.N) : Memref sig .tc .vmem S400x10000 .f32 := win0_0.stage (cfg0.slots t 0)
abbrev hs0 (t : Fin cfg0.N) : (ms0 t).IsWhole := Facts₀.hstage0_0 ((cfg0.slots t 0).cast Facts₀.nbuf0_0)
abbrev ms1 (t : Fin cfg0.N) : Memref sig .tc .vmem S10000x128 .f32 := win0_1.stage (cfg0.slots t 1)
abbrev hs1 (t : Fin cfg0.N) : (ms1 t).IsWhole := Facts₀.hstage0_1 ((cfg0.slots t 1).cast Facts₀.nbuf0_1)
abbrev ms2 (t : Fin cfg0.N) : Memref sig .tc .vmem S128x128 .f32 := win0_2.stage (cfg0.slots t 2)
abbrev hs2 (t : Fin cfg0.N) : (ms2 t).IsWhole := Facts₀.hstage0_2 ((cfg0.slots t 2).cast Facts₀.nbuf0_2)
abbrev ms3 (t : Fin cfg0.N) : Memref sig .tc .vmem S1x128 .f32 := win0_3.stage (cfg0.slots t 3)
abbrev hs3 (t : Fin cfg0.N) : (ms3 t).IsWhole := Facts₀.hstage0_3 ((cfg0.slots t 3).cast Facts₀.nbuf0_3)
abbrev ms4 (t : Fin cfg0.N) : Memref sig .tc .vmem S128x128 .f32 := win0_4.stage (cfg0.slots t 4)
abbrev hs4 (t : Fin cfg0.N) : (ms4 t).IsWhole := Facts₀.hstage0_4 ((cfg0.slots t 4).cast Facts₀.nbuf0_4)
abbrev ms5 (t : Fin cfg0.N) : Memref sig .tc .vmem S1x128 .f32 := win0_5.stage (cfg0.slots t 5)
abbrev hs5 (t : Fin cfg0.N) : (ms5 t).IsWhole := Facts₀.hstage0_5 ((cfg0.slots t 5).cast Facts₀.nbuf0_5)
abbrev ms6 (t : Fin cfg0.N) : Memref sig .tc .vmem S400x128 .f32 := win0_6.stage (cfg0.slots t 6)
abbrev hs6 (t : Fin cfg0.N) : (ms6 t).IsWhole := Facts₀.hstage0_6 ((cfg0.slots t 6).cast Facts₀.nbuf0_6)
/-- The carried scratch: a whole scoped buffer of the kernel's own. -/
abbrev scM : Memref sig .tc .vmem S10000x128 .bf16 := Memref.whole cc0_scratch0
abbrev hscM : (scM).IsWhole := Memref.isWhole_whole _

/-- The region's class invariant with the scratch as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## A whole buffer read through the whole rectangle -/

/-- Reading a whole memref, held at contents `X`, through the rectangle that is its whole shape gives `X`. -/
theorem readAt_whole {S : Shape} {e : EltTy} (a : Memref sig .tc .vmem S e) (ha : a.IsWhole) (X : S.Idx → Elt F e)
    {off : Fin S.rank → Nat} (hz : off = fun _ => 0) (inb : ∀ a, off a + S.size a ≤ S.size a) :
    View.readAt (Elt F) a.view (Rect.unit (s := S) off S.size inb).toLoadRect (ha.unread X) = X := by
  rw [View.readAt_eq_ld, ha.read_unread]; exact View.ld_unit_zero hz inb X

theorem hz2 : (![0, 0] : Fin 2 → Nat) = fun _ => 0 := funext fun a => by fin_cases a <;> rfl

/-- One store through the whole rectangle, read back, is its payload whatever the buffer held. -/
theorem read_writes_whole {S : Shape} {e : EltTy} (a : Memref sig .tc .vmem S e) (f : a.view.ty.Contents (Elt F))
    {off : Fin S.rank → Nat} (hz : off = fun _ => 0) (inb : ∀ a, off a + S.size a ≤ S.size a)
    (w : (Rect.unit (s := S) off S.size inb).shape.Idx → Elt F e) :
    a.view.read (Elt F) (a.view.writes (Elt F) f [(⟨Rect.unit (s := S) off S.size inb, w⟩ : View.Piece (Elt F) S e)]) = w := by
  funext y
  exact View.read_writes_cons_unit_of_mem a.view f inb w [] y y hz (fun a => (Nat.zero_add _).symm)

/-! ## The two runs -/

/-- What the scratch holds after a first-pass point: what it held (`xs`) with the point's 400-row slice `pay` written
    over rows [400·i, 400·i + 400). -/
def slicePut (i : grid0.Coords) (hc0 : k0_cond1 i = 1#1) (arg9 : Memref sig .tc .vmem S10000x128 .bf16) (harg9 : arg9.IsWhole)
    (xs : Vec F S10000x128 .bf16) (pay : FVec F S400x128 .bf16) : Vec F S10000x128 .bf16 :=
  arg9.view.read (Elt F) (arg9.view.writes (Elt F) (harg9.unread xs)
    [(⟨Rect.unit (s := S10000x128) (k0_off1 i) S400x128.size (Facts₀.k0_off1_inb i hc0), pay⟩ : View.Piece (Elt F) S10000x128 .bf16)])

set_option maxHeartbeats 1000000 in
/-- A FIRST-PASS point (first branch taken, second not), on whole memrefs held at `x0 … x5` (the inputs), `xi6` (the result
    window's buffer) and `xs` (the scratch): the body runs, leaves every window's buffer as it was, and the scratch with the
    slice `k0_pay1 x0 x1 x2 x3 x4` written over its rows. -/
theorem runA (c : Dev nD) (i : grid0.Coords)
    (arg2 : Memref sig .tc .vmem S400x10000 .f32) (harg2 : arg2.IsWhole) (arg3 : Memref sig .tc .vmem S10000x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S128x128 .f32) (harg6 : arg6.IsWhole) (arg7 : Memref sig .tc .vmem S1x128 .f32) (harg7 : arg7.IsWhole)
    (arg8 : Memref sig .tc .vmem S400x128 .f32) (harg8 : arg8.IsWhole) (arg9 : Memref sig .tc .vmem S10000x128 .bf16) (harg9 : arg9.IsWhole)
    (hc0 : k0_cond1 i = 1#1) (hc1 : ¬ k0_cond2 i = 1#1)
    (x0 : Vec F S400x10000 .f32) (x1 : Vec F S10000x128 .f32) (x2 : Vec F S128x128 .f32) (x3 : Vec F S1x128 .f32)
    (x4 : Vec F S128x128 .f32) (x5 : Vec F S1x128 .f32) (xi6 : Vec F S400x128 .f32) (xs : Vec F S10000x128 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xi6 ∗ owns (c : Thread nD τ) arg9 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare xi6
            ∗ owns (c : Thread nD τ) arg9 fullShare (slicePut i hc0 arg9 harg9 xs (k0_pay1 x0 x1 x2 x3 x4))) -∗ K ⟨⟩))
      ⊢ wp frame (wpE (defs₀ (F := F)) Variants.none c none) E (cc0__gcn_body i arg2 harg2 arg3 harg3 arg4 harg4 arg5 harg5 arg6 harg6 arg7 harg7 arg8 harg8 arg9 harg9) K := by
  simp only [cc0__gcn_body_eq_skeleton]; unfold cc0__gcn_body_skel
  unfold slicePut owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hfs
  sl_exec (disch := first | exact hc0 | exact hc1)
  sl_step
  rw [readAt_whole arg2 harg2 x0 hz2, readAt_whole arg3 harg3 x1 hz2, readAt_whole arg4 harg4 x2 hz2,
    readAt_whole arg5 harg5 x3 hz2, readAt_whole arg6 harg6 x4 hz2]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  iexists _; isplitr; · ipureintro; rfl
  iexact HS

set_option maxHeartbeats 1000000 in
/-- A SECOND-PASS point (first branch not taken, second taken), on whole memrefs held at `x0 … x5`, the result window's buffer
    at anything and the scratch at `xs`: the body runs, leaves the inputs' buffers and the scratch as they were, and the result
    window's buffer at `k0_pay2 x0 xs x5`. -/
theorem runB (c : Dev nD) (i : grid0.Coords)
    (arg2 : Memref sig .tc .vmem S400x10000 .f32) (harg2 : arg2.IsWhole) (arg3 : Memref sig .tc .vmem S10000x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S128x128 .f32) (harg6 : arg6.IsWhole) (arg7 : Memref sig .tc .vmem S1x128 .f32) (harg7 : arg7.IsWhole)
    (arg8 : Memref sig .tc .vmem S400x128 .f32) (harg8 : arg8.IsWhole) (arg9 : Memref sig .tc .vmem S10000x128 .bf16) (harg9 : arg9.IsWhole)
    (hc0 : ¬ k0_cond1 i = 1#1) (hc1 : k0_cond2 i = 1#1)
    (x0 : Vec F S400x10000 .f32) (x1 : Vec F S10000x128 .f32) (x2 : Vec F S128x128 .f32) (x3 : Vec F S1x128 .f32)
    (x4 : Vec F S128x128 .f32) (x5 : Vec F S1x128 .f32) (xi6 : Vec F S400x128 .f32) (xs : Vec F S10000x128 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xi6 ∗ owns (c : Thread nD τ) arg9 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (k0_pay2 x0 xs x5)
            ∗ owns (c : Thread nD τ) arg9 fullShare xs) -∗ K ⟨⟩))
      ⊢ wp frame (wpE (defs₀ (F := F)) Variants.none c none) E (cc0__gcn_body i arg2 harg2 arg3 harg3 arg4 harg4 arg5 harg5 arg6 harg6 arg7 harg7 arg8 harg8 arg9 harg9) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hfs
  sl_exec (disch := first | exact hc0 | exact hc1)
  sl_step
  rw [readAt_whole arg2 harg2 x0 hz2, readAt_whole arg9 harg9 xs hz2, readAt_whole arg7 harg7 x5 hz2]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact read_writes_whole arg8 (harg8.unread xi6) hz2 Facts₀.inb_S400x128_S400x128_0_0 (k0_pay2 x0 xs x5)
    iexact H6
  iexists _; isplitr; · ipureintro; exact harg9.read_unread _
  iexact HS

end Cert.KernelIdeal.Hand

end
-- ==== Proof.KernelIdeal.Data.lean ====
/-
  The proof data of the one pipeline, the body obligation, the launch, and the frame, at any float instance.

  What the carried scratch holds is stated against ONE function `sFull` of the scratch's index: rows [400·i, 400·i + 400)
  of `sFull` are the slice the first pass's point i stores (`sliceAt i`: its payload over that point's input blocks).
  The invariant before point n: the scratch holds SOME contents that agree with `sFull` on the rows below 400·n
  (nothing is said before the first point; from point 25 on that is all of `sFull`). A first-pass point extends the
  agreement by its own slice; a second-pass point reads the whole scratch, which is `sFull`, and stores the result block
  `k0_pay2 (adjacency block) sFull (bias row)`. The result window is idle throughout the first pass and is not written
  back there, so what its buffer holds then is never consulted.
-/
import proofs.«135945_g27754078666885_cont_9to1_584_17_alg».proof.Proof.KernelIdeal.Body
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The input blocks at a point, at their literal types -/

abbrev blk0 (c : Dev nD) (t : Fin cfg0.N) : Vec F S400x10000 .f32 := iblk m c 0 t
abbrev blk1 (c : Dev nD) (t : Fin cfg0.N) : Vec F S10000x128 .f32 := iblk m c 1 t
abbrev blk2 (c : Dev nD) (t : Fin cfg0.N) : Vec F S128x128 .f32 := iblk m c 2 t
abbrev blk3 (c : Dev nD) (t : Fin cfg0.N) : Vec F S1x128 .f32 := iblk m c 3 t
abbrev blk4 (c : Dev nD) (t : Fin cfg0.N) : Vec F S128x128 .f32 := iblk m c 4 t
abbrev blk5 (c : Dev nD) (t : Fin cfg0.N) : Vec F S1x128 .f32 := iblk m c 5 t

/-! ## What the scratch holds -/

/-- The 400-row slice a first-pass point stores: the first pass's payload over that point's input blocks. -/
def sliceAt (c : Dev nD) (t : Fin cfg0.N) : FVec F S400x128 .bf16 :=
  k0_pay1 (blk0 m c t) (blk1 m c t) (blk2 m c t) (blk3 m c t) (blk4 m c t)

theorem rowBlock_lt (j : S10000x128.Idx) : (j 0).val / 400 < cfg0.N := by
  have h : (j 0).val < 10000 := (j 0).isLt
  have hN : cfg0.N = 50 := N_0
  omega

/-- The scratch once the first pass is over: row r is row r mod 400 of the slice of point r / 400. -/
def sFull (c : Dev nD) : Vec F S10000x128 .bf16 := fun j =>
  sliceAt m c ⟨(j 0).val / 400, rowBlock_lt j⟩
    (ValueIdx.ix2 (n0 := 400) (n1 := 128) ⟨(j 0).val % 400, Nat.mod_lt _ (by decide)⟩ ⟨(j 1).val, (j 1).isLt⟩)

/-- `sFull` at an index of row block `t`. -/
theorem sFull_eq (c : Dev nD) (t : Fin cfg0.N) (j : S10000x128.Idx) (h : (j 0).val / 400 = t.val) :
    sFull m c j = sliceAt m c t
      (ValueIdx.ix2 (n0 := 400) (n1 := 128) ⟨(j 0).val % 400, Nat.mod_lt _ (by decide)⟩ ⟨(j 1).val, (j 1).isLt⟩) := by
  unfold sFull
  have e : (⟨(j 0).val / 400, rowBlock_lt j⟩ : Fin cfg0.N) = t := Fin.ext h
  rw [e]

/-- The scratch agrees with `sFull` on the rows below 400·n. -/
def Good (c : Dev nD) (n : ℕ) (xs : Vec F S10000x128 .bf16) : Prop :=
  ∀ j : S10000x128.Idx, (j 0).val < 400 * n → xs j = sFull m c j

theorem good_zero (c : Dev nD) (xs : Vec F S10000x128 .bf16) : Good m c 0 xs := fun j hj => by omega

/-- From point 25 on the scratch IS `sFull`. -/
theorem good_full (c : Dev nD) {n : ℕ} (hn : 25 ≤ n) {xs : Vec F S10000x128 .bf16} (hg : Good m c n xs) : xs = sFull m c :=
  funext fun j => hg j (by have h : (j 0).val < 10000 := (j 0).isLt; omega)

theorem good_sFull (c : Dev nD) (n : ℕ) : Good m c n (sFull m c) := fun _ _ => rfl

/-- A first-pass point extends the agreement by its own slice: inside the slice's rows the new contents are the slice,
    below them they are what they were. -/
theorem good_step (c : Dev nD) (t : Fin cfg0.N) (ht : t.val < 25) (hc0 : k0_cond1 (grid0.coords t) = 1#1)
    {xs : Vec F S10000x128 .bf16} (hg : Good m c t.val xs) :
    Good m c (t.val + 1) (slicePut (grid0.coords t) hc0 scM hscM xs (sliceAt m c t)) := by
  intro j hj
  have hc1 : ((grid0.coords t) 1).val = t.val := by rw [coord1 t]; omega
  unfold slicePut
  by_cases hin : 400 * t.val ≤ (j 0).val
  · have hdiv : (j 0).val / 400 = t.val := by omega
    rw [sFull_eq m c t j hdiv]
    exact View.read_writes_cons_unit_of_mem scM.view (hscM.unread xs) (Facts₀.k0_off1_inb (grid0.coords t) hc0) (sliceAt m c t) [] j
      (ValueIdx.ix2 (n0 := 400) (n1 := 128) ⟨(j 0).val % 400, Nat.mod_lt _ (by decide)⟩ ⟨(j 1).val, (j 1).isLt⟩)
      (k0_off1_eq (grid0.coords t))
      (fun a => by
        match a with
        | ⟨0, _⟩ => show (j 0).val = 400 * ((grid0.coords t) 1).val + (j 0).val % 400; rw [hc1]; omega
        | ⟨1, _⟩ => show (j 1).val = 0 + (j 1).val; omega)
  · have hlt : (j 0).val < 400 * t.val := by omega
    rw [View.read_writes_cons_unit_of_not_mem scM.view (hscM.unread xs) (Facts₀.k0_off1_inb (grid0.coords t) hc0) (sliceAt m c t) [] j
      (k0_off1_eq (grid0.coords t)) 0 (Or.inl (by show (j 0).val < 400 * ((grid0.coords t) 1).val; rw [hc1]; exact hlt))]
    rw [View.writes_nil, hscM.read_unread]
    exact hg j hlt

/-- The region invariant before point `n`: the scratch at some contents that agree with `sFull` below row 400·n, and the
    generator register at some state. -/
def PhiS (c : Dev nD) (n : ℕ) : sProp 𝕄 :=
  iprop(iprop(∃ xs, ⌜Good m c n xs⌝ ∗ owns (c : Thread nD τ) scM fullShare xs) ∗ (∃ r, prngReg c r))

/-! ## The pipeline's proof data -/

/-- The arrays as the region finds them; after the body at point `t` each input's buffer at its block and the result
    window's at the second pass's payload over `sFull` (at a first-pass point the window is idle: a placeholder there). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay2 (blk0 m c t) (sFull m c) (blk5 m c t)
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) :
    (dats m 0 c).after 6 t = k0_pay2 (blk0 m c t) (sFull m c) (blk5 m c t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1600000 in
/-- The body at any point: a point of the first pass runs by `runA` and extends the scratch's agreement by its slice
    (`good_step`); a point of the second finds the scratch at `sFull` (`good_full`) and runs by `runB`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  unfold PhiS
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  by_cases h0 : t.val < 25
  · rw [Dat.leavesExact_idle (dats m 0 c) 6 t (idle6_A t h0) (noFlush6_A t h0)]
    iintro ⟨⟨⟨%xs, %hg, HS⟩, Hg⟩, Ho, ⟨%d0, H0⟩, ⟨%d1, H1⟩, ⟨%d2, H2⟩, ⟨%d3, H3⟩, ⟨%d4, H4⟩, ⟨%d5, H5⟩, ⟨%d6, H6⟩⟩
    iapply (runA c (grid0.coords t) (ms0 t) (hs0 t) (ms1 t) (hs1 t) (ms2 t) (hs2 t) (ms3 t) (hs3 t) (ms4 t) (hs4 t) (ms5 t) (hs5 t)
      (ms6 t) (hs6 t) scM hscM ((hpassA t).mpr h0) (fun h => absurd ((hpassB t).mp h) (by omega))
      (iblk m c 0 t) (iblk m c 1 t) (iblk m c 2 t) (iblk m c 3 t) (iblk m c 4 t) (iblk m c 5 t) ((dats m 0 c).before 6 t d6) xs Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hg]
    · isplitl [HS]
      · iexists _; isplitr; · ipureintro; exact good_step m c t h0 ((hpassA t).mpr h0) hg
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have h1 : 25 ≤ t.val := by omega
    rw [show (dats m 0 c).leavesExact 6 t = owns (c : Thread nD τ) (ms6 t) fullShare ((dats m 0 c).after 6 t) from by
      unfold Dat.leavesExact; rw [live6_B t h1], after6]
    iintro ⟨⟨⟨%xs, %hg, HS⟩, Hg⟩, Ho, ⟨%d0, H0⟩, ⟨%d1, H1⟩, ⟨%d2, H2⟩, ⟨%d3, H3⟩, ⟨%d4, H4⟩, ⟨%d5, H5⟩, ⟨%d6, H6⟩⟩
    obtain rfl := good_full m c h1 hg
    iapply (runB c (grid0.coords t) (ms0 t) (hs0 t) (ms1 t) (hs1 t) (ms2 t) (hs2 t) (ms3 t) (hs3 t) (ms4 t) (hs4 t) (ms5 t) (hs5 t)
      (ms6 t) (hs6 t) scM hscM (fun h => absurd ((hpassA t).mp h) h0) ((hpassB t).mpr h1)
      (iblk m c 0 t) (iblk m c 1 t) (iblk m c 2 t) (iblk m c 3 t) (iblk m c 4 t) (iblk m c 5 t) ((dats m 0 c).before 6 t d6) (sFull m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hg]
    · isplitl [HS]
      · iexists _; isplitr; · ipureintro; exact good_sFull m c (t.val + 1)
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is asked of the scratch there. -/
theorem hin (c : Dev nD) : Pipeline.ΦA spec0 c ⊢ (dats m 0 c).Φ 0 := by
  rw [show (dats m 0 c).Φ 0 = PhiS m c 0 from rfl, PhiA0_eq]
  unfold PhiS
  iintro ⟨⟨%d, HS⟩, Hg⟩
  isplitl [HS]
  · iexists d; isplitr; · ipureintro; exact good_zero m c d
    iexact HS
  iexact Hg

/-- After the last point the invariant gives the class's back: what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨⟨%xs, %hg, HS⟩, Hg⟩
  isplitl [HS]
  · iexists xs; iexact HS
  iexact Hg

/-! ## The run and the frame -/

set_option backward.isDefEq.respectTransparency.types false in
/-- Every weakly fair execution of @main terminates, and every final state has every array of the pipeline at what the
    library computes from the proof data (an input its entry contents, the result those overwritten by what the body left
    at each write-back) and every other unscoped buffer at its contents at the region's entry. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: @main runs, terminates without a fault, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Hand

end
-- ==== Proof.KernelIdeal.Payload.lean ====
/-
  The kernel's two stored values read at an index, at the ideal instance: every matrix product a plain sum over the
  contracted axis, the change of float format the identity, the rectifier a maximum with zero.
-/
import proofs.«135945_g27754078666885_cont_9to1_584_17_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayValue

open Idealize.ShloMosaic Idealize.ShloMosaic.ValueIdx
open Cert.KernelIdeal Cert.KernelIdeal.Gen

/-! ### The 400 × 10000 by 10000 × 128 product: its operand indices at output index (p, q) and contraction coordinate k are (p, k) and (k, q) -/

theorem lhs_wide_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs_wide_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhs_wide_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhs_wide_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- Into the zero accumulator the product at (p, q) is the plain sum over the contracted axis, whatever the right
    operand's float format. -/
theorem matmul_wide_apply {φ₂ : FTy} (l : FVec Ideal S400x10000 .f32) (r : FVec Ideal S10000x128 φ₂) (p : Fin 400) (q : Fin 128) :
    matmul (F := Ideal) dot_S400x10000_S10000x128_S400x128_1_0_0_1_n_n none l r (constant (F := Ideal) S400x128 .f32 0x00000000#32) (ix2 p q)
      = ∑ k : Fin 10000, l (ix2 p k) * r (ix2 k q) := by
  simp only [matmul]
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p q) ((contrEquiv1 dot_S400x10000_S10000x128_S400x128_1_0_0_1_n_n 10000 rfl rfl).symm k) = ix2 p k := funext fun a => Fin.ext (by
    match a with
    | ⟨0, _⟩ => exact lhs_wide_0 _ _
    | ⟨1, _⟩ => exact (lhs_wide_1 _ _).trans hk)
  have er : dot_S400x10000_S10000x128_S400x128_1_0_0_1_n_n.rhsIdx (ix2 p q) ((contrEquiv1 dot_S400x10000_S10000x128_S400x128_1_0_0_1_n_n 10000 rfl rfl).symm k) = ix2 k q := funext fun a => Fin.ext (by
    match a with
    | ⟨0, _⟩ => exact (rhs_wide_0 _ _).trans hk
    | ⟨1, _⟩ => exact rhs_wide_1 _ _)
  rw [el, er]

/-! ### The 400 × 128 by 128 × 128 product: its operand indices at output index (p, q) and contraction coordinate k are (p, k) and (k, q) -/

theorem lhs_square_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem lhs_square_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem rhs_square_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem rhs_square_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- Into the zero accumulator the product at (p, q) is the plain sum over the contracted axis, whatever the right
    operand's float format. -/
theorem matmul_square_apply {φ₂ : FTy} (l : FVec Ideal S400x128 .f32) (r : FVec Ideal S128x128 φ₂) (p : Fin 400) (q : Fin 128) :
    matmul (F := Ideal) dot_S400x128_S128x128_S400x128_1_0_0_1_n_n none l r (constant (F := Ideal) S400x128 .f32 0x00000000#32) (ix2 p q)
      = ∑ k : Fin 128, l (ix2 p k) * r (ix2 k q) := by
  simp only [matmul]
  rw [Ideal.matmul_constant_zero_apply, ← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 p q) ((contrEquiv1 dot_S400x128_S128x128_S400x128_1_0_0_1_n_n 128 rfl rfl).symm k) = ix2 p k := funext fun a => Fin.ext (by
    match a with
    | ⟨0, _⟩ => exact lhs_square_0 _ _
    | ⟨1, _⟩ => exact (lhs_square_1 _ _).trans hk)
  have er : dot_S400x128_S128x128_S400x128_1_0_0_1_n_n.rhsIdx (ix2 p q) ((contrEquiv1 dot_S400x128_S128x128_S400x128_1_0_0_1_n_n 128 rfl rfl).symm k) = ix2 k q := funext fun a => Fin.ext (by
    match a with
    | ⟨0, _⟩ => exact (rhs_square_0 _ _).trans hk
    | ⟨1, _⟩ => exact rhs_square_1 _ _)
  rw [el, er]

/-! ### The bias row and the rectifier's zero at an index -/

/-- The [1,128] bias row, cast to its own shape and broadcast over the 400 rows, read at (p, k) is the row at k. -/
theorem bias_apply (b : Vec Ideal S1x128 .f32) (p : Fin 400) (k : Fin 128) :
    broadcastTo S400x128 (shapeCast S1x128 b shapeCasts_S1x128_S1x128) broadcasts_S1x128_S400x128 (ix2 p k)
      = b (ix2 0 k) :=
  (broadcastTo_1b_ab_apply _ _ p k).trans (congrFun (shapeCast_self b _) (ix2 0 k))

/-- The scalar zero word broadcast over the block is the extended real 0 at every index. -/
theorem zero_apply (j : S400x128.Idx) :
    broadcast S400x128 (FloatOps.ofBits (F := Ideal) .f32 0x00000000#32) j = 0 :=
  Ideal.ofBits_zero_f32

/-! ### The two stored values -/

/-- The first pass's stored slice at row `p`, column `q` of the block: with a = the adjacency block, x = X, w₁ = W₁,
    b₁ = the bias row, w₂ = W₂, it is  Σₖ max (Σₖ' (Σⱼ a(p,j) · x(j,k')) · w₁(k',k) + b₁(0,k)) 0 · w₂(k,q). -/
theorem pay1_apply (a : Vec Ideal S400x10000 .f32) (x : Vec Ideal S10000x128 .f32) (w1 : Vec Ideal S128x128 .f32)
    (b1 : Vec Ideal S1x128 .f32) (w2 : Vec Ideal S128x128 .f32) (p : Fin 400) (q : Fin 128) :
    k0_pay1 (F := Ideal) a x w1 b1 w2 (ix2 p q)
      = ∑ k : Fin 128, max ((∑ k' : Fin 128, (∑ j : Fin 10000, a (ix2 p j) * x (ix2 j k')) * w1 (ix2 k' k)) + b1 (ix2 0 k)) 0
          * w2 (ix2 k q) := by
  unfold k0_pay1
  -- the same-shape cast and the change of format are the identity at an index
  refine (congrFun (shapeCast_self _ _) (ix2 p q)).trans ?_
  refine (truncf_apply (φ := .f32) (ψ := .bf16) _ bitsLt_bf16_f32 (ix2 p q)).trans ?_
  -- the outer product: a sum over k of the rectified value at (p, k) times w₂(k, q)
  refine (matmul_square_apply _ _ p q).trans ?_
  refine Finset.sum_congr rfl fun k _ => ?_
  refine congrArg (· * w2 (ix2 k q)) ?_
  refine (maximumf_apply _ _ _).trans ?_
  refine congrArg₂ max ?_ (zero_apply _)
  refine (addf_apply _ _ _).trans ?_
  refine congrArg₂ (· + ·) ?_ (bias_apply b1 p k)
  -- the middle product: a sum over k' of the inner product at (p, k') times w₁(k', k)
  refine (matmul_square_apply _ _ p k).trans ?_
  refine Finset.sum_congr rfl fun k' _ => ?_
  exact congrArg (· * w1 (ix2 k' k)) (matmul_wide_apply a x p k')

/-- The second pass's stored block at row `p`, column `q`: with a = the adjacency block, s = the carried scratch,
    b₂ = the bias row, it is  max (Σⱼ a(p,j) · s(j,q) + b₂(0,q)) 0. -/
theorem pay2_apply (a : Vec Ideal S400x10000 .f32) (s : Vec Ideal S10000x128 .bf16) (b2 : Vec Ideal S1x128 .f32)
    (p : Fin 400) (q : Fin 128) :
    k0_pay2 (F := Ideal) a s b2 (ix2 p q)
      = max ((∑ j : Fin 10000, a (ix2 p j) * s (ix2 j q)) + b2 (ix2 0 q)) 0 := by
  unfold k0_pay2
  refine (maximumf_apply _ _ _).trans ?_
  refine congrArg₂ max ?_ (zero_apply _)
  refine (addf_apply _ _ _).trans ?_
  exact congrArg₂ (· + ·) (matmul_wide_apply (φ₂ := .bf16) a s p q) (bias_apply b2 p q)

end Cert.KernelIdeal.PayValue

end
-- ==== Proof.Spec.lean ====
/-
  The mathematics of the two-layer graph convolution, stated once over the extended reals and over the literal shapes:
  what the fused kernel computes, what the plain reference computes, and the one law that joins them.

  With A the n×n adjacency (n = 10000), X the n×128 features, W₁ W₂ the 128×128 weights and b₁ b₂ the biases:
    reference   relu (A · (relu (A · (X · W₁) + b₁) · W₂) + b₂)
    kernel      relu (A · S + b₂)   with   S = relu ((A · X) · W₁ + b₁) · W₂   kept row block by row block.
  The two differ only in the bracketing (A · X) · W₁ against A · (X · W₁): equal entry by entry when every entry of
  A, X and W₁ is a real number (distributivity, which the extended reals lack at the infinities).
-/
import Idealize.ShloMosaic.PureOps.Ideal
import Idealize.ShloMosaic.Lib.ValueIdx

noncomputable section

namespace Cert.GcnSpec

open Idealize.ShloMosaic Idealize.ShloMosaic.ValueIdx

/-- The feature-shaped arrays (X, every intermediate, the result): 10000 × 128. -/
abbrev SX : Shape := ⟨2, ![10000, 128]⟩
/-- The adjacency: 10000 × 10000. -/
abbrev SA : Shape := ⟨2, ![10000, 10000]⟩
/-- A weight matrix: 128 × 128. -/
abbrev SW : Shape := ⟨2, ![128, 128]⟩
/-- A bias: 128. -/
abbrev SB : Shape := ⟨1, ![128]⟩

/-- Neighbourhood aggregation A · Z: entry (i, l) is the sum over nodes j of A(i, j) · Z(j, l). -/
def agg (adj : SA.Idx → EReal) (z : SX.Idx → EReal) : SX.Idx → EReal :=
  fun i => ∑ j : Fin 10000, adj (ix2 (i 0) j) * z (ix2 j (i 1))

/-- The dense transform H · W: entry (i, l) is the sum over features k of H(i, k) · W(k, l). -/
def lin (h : SX.Idx → EReal) (w : SW.Idx → EReal) : SX.Idx → EReal :=
  fun i => ∑ k : Fin 128, h (ix2 (i 0) k) * w (ix2 k (i 1))

/-- Bias then rectifier: entry (i, l) is max (Z(i, l) + b(l)) 0. -/
def reluB (z : SX.Idx → EReal) (b : SB.Idx → EReal) : SX.Idx → EReal :=
  fun i => max (z i + b (ix1 (i 1))) 0

/-- What the kernel keeps between its two passes: S = relu ((A · X) · W₁ + b₁) · W₂. -/
def support2 (x : SX.Idx → EReal) (adj : SA.Idx → EReal) (w1 : SW.Idx → EReal) (b1 : SB.Idx → EReal) (w2 : SW.Idx → EReal) :
    SX.Idx → EReal :=
  lin (reluB (lin (agg adj x) w1) b1) w2

/-- The kernel's result: relu (A · S + b₂). -/
def kernelOut (x : SX.Idx → EReal) (adj : SA.Idx → EReal) (w1 : SW.Idx → EReal) (b1 : SB.Idx → EReal) (w2 : SW.Idx → EReal)
    (b2 : SB.Idx → EReal) : SX.Idx → EReal :=
  reluB (agg adj (support2 x adj w1 b1 w2)) b2

/-- The reference's result: relu (A · (relu (A · (X · W₁) + b₁) · W₂) + b₂). -/
def refOut (x : SX.Idx → EReal) (adj : SA.Idx → EReal) (w1 : SW.Idx → EReal) (b1 : SB.Idx → EReal) (w2 : SW.Idx → EReal)
    (b2 : SB.Idx → EReal) : SX.Idx → EReal :=
  reluB (agg adj (lin (reluB (agg adj (lin x w1)) b1) w2)) b2

/-- The coercion of the reals into the extended reals commutes with finite sums. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The bracketing law (A · X) · W₁ = A · (X · W₁), entry by entry, for real entries. -/
theorem lin_agg_eq_agg_lin (x : SX.Idx → EReal) (adj : SA.Idx → EReal) (w1 : SW.Idx → EReal)
    (hx : ∀ i, ∃ r : ℝ, x i = (r : EReal)) (hadj : ∀ i, ∃ r : ℝ, adj i = (r : EReal)) (hw1 : ∀ i, ∃ r : ℝ, w1 i = (r : EReal)) :
    lin (agg adj x) w1 = agg adj (lin x w1) := by
  -- real witnesses for every entry
  choose rx hrx using hx
  choose ra hra using hadj
  choose rw hrw using hw1
  funext i
  obtain ⟨a, l, rfl⟩ : ∃ a l, i = ix2 a l := ⟨i 0, i 1, eq_ix2 i⟩
  -- entry (a, l) of both sides, spelt out
  show (∑ k : Fin 128, (∑ j : Fin 10000, adj (ix2 a j) * x (ix2 j k)) * w1 (ix2 k l))
      = ∑ j : Fin 10000, adj (ix2 a j) * (∑ k : Fin 128, x (ix2 j k) * w1 (ix2 k l))
  -- both sides are the coercion of a double sum of real numbers
  simp only [hrx, hra, hrw, ← EReal.coe_mul, ← coe_finset_sum]
  congr 1
  -- in ℝ: distribute, exchange the two sums, reassociate
  simp only [Finset.sum_mul, Finset.mul_sum]
  rw [Finset.sum_comm]
  exact Finset.sum_congr rfl fun j _ => Finset.sum_congr rfl fun k _ => mul_assoc _ _ _

/-- The kernel's result is the reference's, for real A, X and W₁. -/
theorem kernelOut_eq_refOut (x : SX.Idx → EReal) (adj : SA.Idx → EReal) (w1 : SW.Idx → EReal) (b1 : SB.Idx → EReal)
    (w2 : SW.Idx → EReal) (b2 : SB.Idx → EReal)
    (hx : ∀ i, ∃ r : ℝ, x i = (r : EReal)) (hadj : ∀ i, ∃ r : ℝ, adj i = (r : EReal)) (hw1 : ∀ i, ∃ r : ℝ, w1 i = (r : EReal)) :
    kernelOut x adj w1 b1 w2 b2 = refOut x adj w1 b1 w2 b2 := by
  unfold kernelOut refOut support2
  rw [lin_agg_eq_agg_lin x adj w1 hx hadj hw1]

end Cert.GcnSpec

end
-- ==== Proof.KernelIdeal.Value.lean ====
/-
  The idealized kernel's result array after the run, as one function of the argument arrays: `kernelOut`.

  The result window is written back at the second pass's points only; point 25 + i writes rows [400·i, 400·i + 400), so the
  25 blocks tile the array. What such a point writes is max (A(r, ·) · S(·, l) + b₂(l)) 0 with S the scratch after the first
  pass, and row r of S is row r mod 400 of the slice point r / 400 stored:  Σₖ max ((A(r, ·) · X) · W₁(·, k) + b₁(k)) 0 · W₂(k, l).
  Each window's block at a point is read off its array by the window's index map (decided over the grid): the adjacency
  block of point t is rows [400·(t mod 25), …); X, W₁, W₂ are whole; the two bias rows are the [128] biases seen as [1, 128].
-/
import proofs.«135945_g27754078666885_cont_9to1_584_17_alg».proof.Proof.KernelIdeal.Data
import proofs.«135945_g27754078666885_cont_9to1_584_17_alg».proof.Proof.KernelIdeal.Payload
import proofs.«135945_g27754078666885_cont_9to1_584_17_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.KValue

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Hand Cert.GcnSpec

variable (m : (ℓ : Loc nD τ sig) → Buf (Elt Ideal) ℓ) (ρ : Dev nD → PrngReg)

/-! ## The argument arrays -/

abbrev aX (c : Dev nD) : SX.Idx → EReal := m ((c : Thread nD τ).loc main_arg0)
abbrev aA (c : Dev nD) : SA.Idx → EReal := m ((c : Thread nD τ).loc main_arg1)
abbrev aW1 (c : Dev nD) : SW.Idx → EReal := m ((c : Thread nD τ).loc main_arg2)
abbrev aB1 (c : Dev nD) : SB.Idx → EReal := m ((c : Thread nD τ).loc main_arg3)
abbrev aW2 (c : Dev nD) : SW.Idx → EReal := m ((c : Thread nD τ).loc main_arg4)
abbrev aB2 (c : Dev nD) : SB.Idx → EReal := m ((c : Thread nD τ).loc main_arg5)

/-! ## The index maps over the grid -/

theorem idx_facts : ∀ t : Fin cfg0.N,
    win0_0.index t (0 : Fin 2) = t.val % 25 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ (25 ≤ t.val → win0_6.index t (0 : Fin 2) = t.val - 25) ∧ win0_6.index t (1 : Fin 2) = 0 :=
  (by decide +kernel : ∀ t : Fin grid0.N, _)

/-- The result window is written back exactly at the second pass's points. -/
theorem flush6 : ∀ t : Fin cfg0.N, (cfg0.win 6).flush t = true ↔ 25 ≤ t.val :=
  (by decide +kernel : ∀ t : Fin grid0.N, (cfg0.win 6).flush t = true ↔ 25 ≤ t.val)

/-! ## Each window's block at a point, read off its array -/

/-- The adjacency block of point `t`: rows [400·(t mod 25), 400·(t mod 25) + 400), every column. -/
theorem blk0_apply (c : Dev nD) (t : Fin cfg0.N) (p : Fin 400) (r : Fin 10000) (hr : r.val = 400 * (t.val % 25) + p.val)
    (j : Fin 10000) : blk0 m c t (ix2 p j) = aA m c (ix2 r j) := by
  show V m c main_arg1 (((cfg0.win 0).blk t).view.emb (ix2 p j)) = _
  rw [V_main_arg1]
  refine congrArg (m ((c : Thread nD τ).loc main_arg1)) (funext fun a => Fin.ext ?_)
  obtain ⟨e0, e1, -⟩ := idx_facts t
  match a with
  | ⟨0, _⟩ => show win0_0.index t (0 : Fin 2) * 400 + 1 * p.val = r.val; omega
  | ⟨1, _⟩ => show win0_0.index t (1 : Fin 2) * 10000 + 1 * j.val = j.val; omega

/-- X is staged whole. -/
theorem blk1_apply (c : Dev nD) (t : Fin cfg0.N) (j : Fin 10000) (k : Fin 128) : blk1 m c t (ix2 j k) = aX m c (ix2 j k) := by
  show V m c main_arg0 (((cfg0.win 1).blk t).view.emb (ix2 j k)) = _
  rw [V_main_arg0]
  refine congrArg (m ((c : Thread nD τ).loc main_arg0)) (funext fun a => Fin.ext ?_)
  obtain ⟨-, -, e0, e1, -⟩ := idx_facts t
  match a with
  | ⟨0, _⟩ => show win0_1.index t (0 : Fin 2) * 10000 + 1 * j.val = j.val; omega
  | ⟨1, _⟩ => show win0_1.index t (1 : Fin 2) * 128 + 1 * k.val = k.val; omega

/-- W₁ is staged whole. -/
theorem blk2_apply (c : Dev nD) (t : Fin cfg0.N) (j : Fin 128) (k : Fin 128) : blk2 m c t (ix2 j k) = aW1 m c (ix2 j k) := by
  show V m c main_arg2 (((cfg0.win 2).blk t).view.emb (ix2 j k)) = _
  rw [V_main_arg2]
  refine congrArg (m ((c : Thread nD τ).loc main_arg2)) (funext fun a => Fin.ext ?_)
  obtain ⟨-, -, -, -, e0, e1, -⟩ := idx_facts t
  match a with
  | ⟨0, _⟩ => show win0_2.index t (0 : Fin 2) * 128 + 1 * j.val = j.val; omega
  | ⟨1, _⟩ => show win0_2.index t (1 : Fin 2) * 128 + 1 * k.val = k.val; omega

/-- W₂ is staged whole. -/
theorem blk4_apply (c : Dev nD) (t : Fin cfg0.N) (j : Fin 128) (k : Fin 128) : blk4 m c t (ix2 j k) = aW2 m c (ix2 j k) := by
  show V m c main_arg4 (((cfg0.win 4).blk t).view.emb (ix2 j k)) = _
  rw [V_main_arg4]
  refine congrArg (m ((c : Thread nD τ).loc main_arg4)) (funext fun a => Fin.ext ?_)
  obtain ⟨-, -, -, -, -, -, -, -, e0, e1, -⟩ := idx_facts t
  match a with
  | ⟨0, _⟩ => show win0_4.index t (0 : Fin 2) * 128 + 1 * j.val = j.val; omega
  | ⟨1, _⟩ => show win0_4.index t (1 : Fin 2) * 128 + 1 * k.val = k.val; omega

/-- The first bias row as the region finds it: b₁ seen as a 1 × 128 array. -/
theorem V_v0 (c : Dev nD) : (V m c main_v0 : S1x128.Idx → EReal)
    = shapeCast S1x128 (m ((c : Thread nD τ).loc main_arg3)) Facts₀.shapeCasts_S128_S1x128 := by
  dsimp only [Gen.V, Gen.hostOps0]; after_results; rfl

/-- The second bias row as the region finds it: b₂ seen as a 1 × 128 array. -/
theorem V_v1 (c : Dev nD) : (V m c main_v1 : S1x128.Idx → EReal)
    = shapeCast S1x128 (m ((c : Thread nD τ).loc main_arg5)) Facts₀.shapeCasts_S128_S1x128 := by
  dsimp only [Gen.V, Gen.hostOps0]; after_results; rfl

theorem blk3_apply (c : Dev nD) (t : Fin cfg0.N) (k : Fin 128) : blk3 m c t (ix2 (0 : Fin 1) k) = aB1 m c (ix1 k) := by
  show V m c main_v0 (((cfg0.win 3).blk t).view.emb (ix2 (0 : Fin 1) k)) = _
  have e : ((cfg0.win 3).blk t).view.emb (ix2 (0 : Fin 1) k) = ix2 (0 : Fin 1) k := funext fun a => Fin.ext (by
    obtain ⟨-, -, -, -, -, -, e0, e1, -⟩ := idx_facts t
    match a with
    | ⟨0, _⟩ => show win0_3.index t (0 : Fin 2) * 1 + 1 * 0 = 0; omega
    | ⟨1, _⟩ => show win0_3.index t (1 : Fin 2) * 128 + 1 * k.val = k.val; omega)
  rw [e, V_v0]
  exact shapeCast_a_1a_apply _ _ 0 k

theorem blk5_apply (c : Dev nD) (t : Fin cfg0.N) (k : Fin 128) : blk5 m c t (ix2 (0 : Fin 1) k) = aB2 m c (ix1 k) := by
  show V m c main_v1 (((cfg0.win 5).blk t).view.emb (ix2 (0 : Fin 1) k)) = _
  have e : ((cfg0.win 5).blk t).view.emb (ix2 (0 : Fin 1) k) = ix2 (0 : Fin 1) k := funext fun a => Fin.ext (by
    obtain ⟨-, -, -, -, -, -, -, -, -, -, e0, e1, -⟩ := idx_facts t
    match a with
    | ⟨0, _⟩ => show win0_5.index t (0 : Fin 2) * 1 + 1 * 0 = 0; omega
    | ⟨1, _⟩ => show win0_5.index t (1 : Fin 2) * 128 + 1 * k.val = k.val; omega)
  rw [e, V_v1]
  exact shapeCast_a_1a_apply _ _ 0 k

/-! ## The scratch after the first pass is S -/

/-- The slice a first-pass point stores is its rows of S = relu ((A · X) · W₁ + b₁) · W₂. -/
theorem sliceAt_apply (c : Dev nD) (t : Fin cfg0.N) (ht : t.val < 25) (p : Fin 400) (q : Fin 128) (r : Fin 10000)
    (hr : r.val = 400 * t.val + p.val) :
    sliceAt (F := Ideal) m c t (ix2 p q) = support2 (aX m c) (aA m c) (aW1 m c) (aB1 m c) (aW2 m c) (ix2 r q) := by
  unfold sliceAt
  rw [PayValue.pay1_apply]
  have hr' : r.val = 400 * (t.val % 25) + p.val := by omega
  simp only [blk0_apply m c t p r hr', blk1_apply, blk2_apply, blk3_apply, blk4_apply]
  rfl

theorem sFull_eq_support2 (c : Dev nD) :
    sFull (F := Ideal) m c = support2 (aX m c) (aA m c) (aW1 m c) (aB1 m c) (aW2 m c) := by
  funext j
  have hj0 : (j 0).val < 10000 := (j 0).isLt
  have hN : cfg0.N = 50 := N_0
  rw [sFull_eq m c ⟨(j 0).val / 400, by omega⟩ j rfl]
  rw [sliceAt_apply m c ⟨(j 0).val / 400, by omega⟩ (by show (j 0).val / 400 < 25; omega) _ _ ⟨(j 0).val, hj0⟩
    (by show (j 0).val = 400 * ((j 0).val / 400) + (j 0).val % 400; omega)]
  exact congrArg _ (funext fun a => by match a with | ⟨0, _⟩ => rfl | ⟨1, _⟩ => rfl)

/-! ## What a second-pass point writes back -/

/-- The second pass's payload at a point, over the scratch after the first pass, is that point's rows of `kernelOut`. -/
theorem pay2_block (c : Dev nD) (t : Fin cfg0.N) (ht : 25 ≤ t.val) (y : S400x128.Idx) (i : SX.Idx)
    (h0 : (i 0).val = 400 * (t.val - 25) + (y 0).val) (h1 : (i 1).val = (y 1).val) :
    k0_pay2 (F := Ideal) (blk0 m c t) (sFull m c) (blk5 m c t) y
      = kernelOut (aX m c) (aA m c) (aW1 m c) (aB1 m c) (aW2 m c) (aB2 m c) i := by
  obtain ⟨p, q, rfl⟩ : ∃ (p : Fin 400) (q : Fin 128), y = ix2 p q := ⟨y 0, y 1, eq_ix2 y⟩
  obtain ⟨r, l, rfl⟩ : ∃ (r : Fin 10000) (l : Fin 128), i = ix2 r l := ⟨i 0, i 1, eq_ix2 i⟩
  have h0' : r.val = 400 * (t.val - 25) + p.val := h0
  obtain rfl : l = q := Fin.ext h1
  have hN : cfg0.N = 50 := N_0
  have ht' : t.val < 50 := lt_of_lt_of_eq t.isLt hN
  have hr' : r.val = 400 * (t.val % 25) + p.val := by omega
  rw [PayValue.pay2_apply]
  simp only [blk0_apply m c t p r hr', blk5_apply, sFull_eq_support2]
  rfl

theorem flushed6_eq (c : Dev nD) (t : Fin cfg0.N) (ht : 25 ≤ t.val) :
    (dats m 0 c).flushed 6 t
      = ((cfg0.win 6).blk t).view.read (Elt Ideal) (kernelOut (aX m c) (aA m c) (aW1 m c) (aB1 m c) (aW2 m c) (aB2 m c)) := by
  show (cfg0.win 6).cut (grid0.coords t) ((dats m 0 c).after 6 t) = _
  rw [after6]
  funext y
  obtain ⟨-, -, -, -, -, -, -, -, -, -, -, -, e0, e1⟩ := idx_facts t
  have e0' := e0 ht
  show k0_pay2 (F := Ideal) (blk0 m c t) (sFull m c) (blk5 m c t) y
    = kernelOut (aX m c) (aA m c) (aW1 m c) (aB1 m c) (aW2 m c) (aB2 m c) (((cfg0.win 6).blk t).view.emb y)
  exact pay2_block m c t ht y _
    (by show win0_6.index t (0 : Fin 2) * 400 + 1 * (y 0).val = 400 * (t.val - 25) + (y 0).val; omega)
    (by show win0_6.index t (1 : Fin 2) * 128 + 1 * (y 1).val = (y 1).val; omega)

/-! ## The blocks tile the array -/

theorem mem_blk6 (t : Fin cfg0.N) (i : SX.Idx) :
    i ∈ ((cfg0.win 6).blk t).view.set ↔ ∀ a : Fin 2, win0_6.index t a * S400x128.size a ≤ (i a).val
      ∧ (i a).val < win0_6.index t a * S400x128.size a + S400x128.size a := by
  show i ∈ ((View.whole main_v2).slice (win0_6.rect t)).set ↔ _
  rw [View.set_slice_whole, Rect.mem_set_unit]
  exact Iff.rfl

/-- Row r is in the block of the second pass's point 25 + r / 400. -/
theorem cover6 (i : SX.Idx) : ∃ t : Fin cfg0.N, (cfg0.win 6).flush t = true ∧ i ∈ ((cfg0.win 6).blk t).view.set := by
  have hi0 : (i 0).val < 10000 := (i 0).isLt
  have hi1 : (i 1).val < 128 := (i 1).isLt
  have hN : cfg0.N = 50 := N_0
  have hlt : 25 + (i 0).val / 400 < cfg0.N := by omega
  refine ⟨⟨25 + (i 0).val / 400, hlt⟩, (flush6 _).mpr (by show 25 ≤ 25 + (i 0).val / 400; omega), ?_⟩
  rw [mem_blk6]
  obtain ⟨-, -, -, -, -, -, -, -, -, -, -, -, e0, e1⟩ := idx_facts ⟨25 + (i 0).val / 400, hlt⟩
  have e0' : win0_6.index ⟨25 + (i 0).val / 400, hlt⟩ (0 : Fin 2) = 25 + (i 0).val / 400 - 25 := e0 (by show 25 ≤ 25 + (i 0).val / 400; omega)
  intro a
  match a with
  | ⟨0, _⟩ =>
    show win0_6.index ⟨25 + (i 0).val / 400, hlt⟩ (0 : Fin 2) * 400 ≤ (i 0).val
      ∧ (i 0).val < win0_6.index ⟨25 + (i 0).val / 400, hlt⟩ (0 : Fin 2) * 400 + 400
    omega
  | ⟨1, _⟩ =>
    show win0_6.index ⟨25 + (i 0).val / 400, hlt⟩ (1 : Fin 2) * 128 ≤ (i 1).val
      ∧ (i 1).val < win0_6.index ⟨25 + (i 0).val / 400, hlt⟩ (1 : Fin 2) * 128 + 128
    omega

/-- The result array after the run. -/
theorem final6 (c : Dev nD) :
    (dats m 0 c).arrAt 6 cfg0.N = kernelOut (aX m c) (aA m c) (aW1 m c) (aB1 m c) (aW2 m c) (aB2 m c) :=
  (dats m 0 c).arrAt_eq_of_cover 6 _ (fun t hf => flushed6_eq m c t ((flush6 t).mp hf)) cover6

/-! ## The run, read -/

/-- Every weakly fair execution of the idealized kernel's @main terminates with the result array at `kernelOut` of the
    argument arrays and the arguments unchanged. -/
theorem kernel_run : θ_run (defs (F := Ideal)) (onTc (τ := τ) (main (F := Ideal))) ⟨m, fun _ => 0, ρ⟩ (fun r => ∀ c : Dev nD,
      r.2.mem ((c.tc : Thread nD τ).loc main_v2) = kernelOut (aX m c) (aA m c) (aW1 m c) (aB1 m c) (aW2 m c) (aB2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (final6 m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main (F := Ideal) m ρ)

end Cert.KernelIdeal.KValue

end
-- ==== Proof.RefValue.lean ====
/-
  The reference's run read back at the ideal instance: its result array is `refOut` of its argument arrays, index by index
  (two host matrix products as sums, the broadcast biases, the rectifier a maximum with zero), and its arguments end unchanged.
-/
import proofs.«135945_g27754078666885_cont_9to1_584_17_alg».proof.Defs
import proofs.«135945_g27754078666885_cont_9to1_584_17_alg».proof.Proof.Gen.ReferenceIdeal
import proofs.«135945_g27754078666885_cont_9to1_584_17_alg».proof.Proof.Gen.ReferenceIdeal.Run
import proofs.«135945_g27754078666885_cont_9to1_584_17_alg».proof.Proof.Gen.ReferenceIdeal.Read
import proofs.«135945_g27754078666885_cont_9to1_584_17_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

noncomputable section

namespace Cert.ReferenceIdeal.RefValue

open Idealize.ShloMosaic Idealize.ShloMosaic.TcCoe Idealize.SL.Sem Idealize.ShloMosaic.ValueIdx
open Cert.ReferenceIdeal Cert.ReferenceIdeal.Gen

open Cert.GcnSpec

/-! Each stage of the reference read at an index: the two kinds of matrix product are the sums `lin` and `agg`, the
    bias is read through its two broadcasts at the column, and the rectifier's zero is the broadcast scalar zero. -/

/-- The feature transform X · W₁ is `lin`. -/
theorem xw1_eq_lin (x0 : (⟨S10000x128, .f32⟩ : BufTy).Contents (Elt Ideal)) (x2 : (⟨S128x128, .f32⟩ : BufTy).Contents (Elt Ideal)) :
    Read.val_main_v0 (F := Ideal) x0 x2 = lin x0 x2 := by
  funext i
  rw [Read.val_main_v0_apply]
  unfold lin
  refine Finset.sum_congr rfl fun k _ => ?_
  rw [show Read.lidx_main_v0 i k = ix2 (i 0) k from
        funext fun a => Fin.ext (by match a with | ⟨0, _⟩ => rfl | ⟨1, _⟩ => rfl),
      show Read.ridx_main_v0 i k = ix2 k (i 1) from
        funext fun a => Fin.ext (by match a with | ⟨0, _⟩ => rfl | ⟨1, _⟩ => rfl)]
  rfl

/-- The first aggregation A · (X · W₁) is `agg` of `lin`. -/
theorem axw1_eq_agg (x0 : (⟨S10000x128, .f32⟩ : BufTy).Contents (Elt Ideal)) (x1 : (⟨S10000x10000, .f32⟩ : BufTy).Contents (Elt Ideal))
    (x2 : (⟨S128x128, .f32⟩ : BufTy).Contents (Elt Ideal)) :
    Read.val_main_v1 (F := Ideal) x0 x1 x2 = agg x1 (lin x0 x2) := by
  funext i
  rw [Read.val_main_v1_apply, xw1_eq_lin]
  unfold agg
  refine Finset.sum_congr rfl fun k _ => ?_
  rw [show Read.lidx_main_v1 i k = ix2 (i 0) k from
        funext fun a => Fin.ext (by match a with | ⟨0, _⟩ => rfl | ⟨1, _⟩ => rfl),
      show Read.ridx_main_v1 i k = ix2 k (i 1) from
        funext fun a => Fin.ext (by match a with | ⟨0, _⟩ => rfl | ⟨1, _⟩ => rfl)]
  rfl

/-- Bias b₁ and the first rectifier: `reluB`. -/
theorem hidden_eq_reluB (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal)) :
    Read.val_main_v5 (F := Ideal) x0 x1 x2 x3 = reluB (agg x1 (lin x0 x2)) x3 := by
  funext i
  rw [Read.val_main_v5_apply, Read.val_main_v4_apply, axw1_eq_agg, Read.val_main_v3_apply, Read.val_main_v2_apply,
    Read.val_main_call0_v0_apply, Read.val_main_call0_cst_apply,
    show Read.idx_main_v2 (Read.idx_main_v3 i) = ix1 (i 1) from
      funext fun a => Fin.ext (by match a with | ⟨0, _⟩ => rfl)]
  simp only [Ideal.maximumf_def, Ideal.addf_def, Ideal.ofBits_def, Ideal.ofBits_zero_f32]
  rfl

/-- The second transform relu(…) · W₂ is `lin`. -/
theorem hw2_eq_lin (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    Read.val_main_v6 (F := Ideal) x0 x1 x2 x3 x4 = lin (reluB (agg x1 (lin x0 x2)) x3) x4 := by
  funext i
  rw [Read.val_main_v6_apply, hidden_eq_reluB]
  unfold lin
  refine Finset.sum_congr rfl fun k _ => ?_
  rw [show Read.lidx_main_v6 i k = ix2 (i 0) k from
        funext fun a => Fin.ext (by match a with | ⟨0, _⟩ => rfl | ⟨1, _⟩ => rfl),
      show Read.ridx_main_v6 i k = ix2 k (i 1) from
        funext fun a => Fin.ext (by match a with | ⟨0, _⟩ => rfl | ⟨1, _⟩ => rfl)]
  rfl

/-- The second aggregation is `agg`. -/
theorem ahw2_eq_agg (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    Read.val_main_v7 (F := Ideal) x0 x1 x2 x3 x4 = agg x1 (lin (reluB (agg x1 (lin x0 x2)) x3) x4) := by
  funext i
  rw [Read.val_main_v7_apply, hw2_eq_lin]
  unfold agg
  refine Finset.sum_congr rfl fun k _ => ?_
  rw [show Read.lidx_main_v7 i k = ix2 (i 0) k from
        funext fun a => Fin.ext (by match a with | ⟨0, _⟩ => rfl | ⟨1, _⟩ => rfl),
      show Read.ridx_main_v7 i k = ix2 k (i 1) from
        funext fun a => Fin.ext (by match a with | ⟨0, _⟩ => rfl | ⟨1, _⟩ => rfl)]
  rfl

/-- Bias b₂ and the last rectifier: the reference's result is `refOut`. -/
theorem result_eq_refOut (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    Read.val_main_v11 (F := Ideal) x0 x1 x2 x3 x4 x5 = refOut x0 x1 x2 x3 x4 x5 := by
  funext i
  rw [Read.val_main_v11_apply, Read.val_main_v10_apply, ahw2_eq_agg, Read.val_main_v9_apply, Read.val_main_v8_apply,
    Read.val_main_call1_v0_apply, Read.val_main_call1_cst_apply,
    show Read.idx_main_v8 (Read.idx_main_v9 i) = ix1 (i 1) from
      funext fun a => Fin.ext (by match a with | ⟨0, _⟩ => rfl)]
  simp only [Ideal.maximumf_def, Ideal.addf_def, Ideal.ofBits_def, Ideal.ofBits_zero_f32]
  rfl

/-- Every weakly fair execution of the reference terminates with its result at `refOut` of the argument arrays and the
    arguments unchanged. -/
theorem ref_run (m' : (ℓ : Loc nD τ sig) → Buf (Elt Ideal) ℓ) (ρ' : Dev nD → PrngReg) :
    θ_run (Cert.ReferenceIdeal.defs (F := Ideal)) (onTc (τ := τ) (Cert.ReferenceIdeal.main (F := Ideal))) ⟨m', fun _ => 0, ρ'⟩
      (fun r => ∀ c : Dev nD,
        r.2.mem ((c.tc : Thread nD τ).loc main_v11)
            = Cert.GcnSpec.refOut (m' ((c.tc : Thread nD τ).loc main_arg0)) (m' ((c.tc : Thread nD τ).loc main_arg1))
                (m' ((c.tc : Thread nD τ).loc main_arg2)) (m' ((c.tc : Thread nD τ).loc main_arg3))
                (m' ((c.tc : Thread nD τ).loc main_arg4)) (m' ((c.tc : Thread nD τ).loc main_arg5))
        ∧ r.2.mem ((c.tc : Thread nD τ).loc main_arg0) = m' ((c.tc : Thread nD τ).loc main_arg0)
        ∧ r.2.mem ((c.tc : Thread nD τ).loc main_arg1) = m' ((c.tc : Thread nD τ).loc main_arg1)
        ∧ r.2.mem ((c.tc : Thread nD τ).loc main_arg2) = m' ((c.tc : Thread nD τ).loc main_arg2)
        ∧ r.2.mem ((c.tc : Thread nD τ).loc main_arg3) = m' ((c.tc : Thread nD τ).loc main_arg3)
        ∧ r.2.mem ((c.tc : Thread nD τ).loc main_arg4) = m' ((c.tc : Thread nD τ).loc main_arg4)
        ∧ r.2.mem ((c.tc : Thread nD τ).loc main_arg5) = m' ((c.tc : Thread nD τ).loc main_arg5)) := by
  exact (θ_run _ _ _).mono
    (fun _ h c => ⟨(h c).1.trans ((Read.val_main_v11_eq _ _ _ _ _ _).trans (result_eq_refOut _ _ _ _ _ _)), (h c).2⟩)
    (Value.run (F := Ideal) m' ρ')

end Cert.ReferenceIdeal.RefValue

end
-- ==== Proof.Finite.lean ====
/-
  From the precondition (every float input finite) to the form the bracketing law uses: every entry of X, of the adjacency
  and of W₁ is a real number.
-/
import proofs.«135945_g27754078666885_cont_9to1_584_17_alg».proof.Defs
import proofs.«135945_g27754078666885_cont_9to1_584_17_alg».proof.Proof.Gen.Pre_finite_inputs
import proofs.«135945_g27754078666885_cont_9to1_584_17_alg».proof.Proof.Gen.KernelIdeal
import Idealize.ShloMosaic.Lib.ReduceAll
import Idealize.ShloMosaic.Lib.ValueIdx

noncomputable section

namespace Cert.Proof.Finite

open Idealize.ShloMosaic Idealize.ShloMosaic.TcCoe Idealize.SL.Sem Idealize.ShloMosaic.ValueIdx
open Cert.KernelIdeal

/-- The result of a reduction over every axis has exactly one index. -/
instance : Subsingleton Cert.Pre_finite_inputs.S_.Idx := ⟨fun a b => funext fun d => d.elim0⟩

/-- The pattern 0x7F800000 denotes +∞. -/
theorem inf_eq_top : Ideal.ofBits .f32 0x7F800000#32 = (⊤ : EReal) := by simp [Ideal.ofBits, Ideal.ieee]

/-- An extended real whose absolute value max x (-x) compares strictly below +∞ is a real number: at ⊤ the maximum is ⊤,
    at ⊥ it is -⊥ = ⊤, and ⊤ < ⊤ fails. -/
theorem real_of_abs_lt_inf (x : EReal)
    (hlt : Ideal.cmp .olt (max x (-x)) (Ideal.ofBits .f32 0x7F800000#32) = 1#1) : ∃ r : ℝ, x = (r : EReal) := by
  rw [inf_eq_top] at hlt
  induction x using EReal.rec with
  | bot => simp [Ideal.cmp] at hlt
  | coe r => exact ⟨r, rfl⟩
  | top => simp [Ideal.cmp] at hlt

/-- Under the precondition, on every device, every entry of X (argument 0), of the adjacency (argument 1) and of W₁
    (argument 2) is a real number. -/
theorem real_of_pre (m : (ℓ : Loc nD τ sig) → Buf (Elt Ideal) ℓ) (h : Cert.Pre_KernelIdeal m) (c : Dev nD) :
    (∀ i, ∃ r : ℝ, m ((c.tc : Thread nD τ).loc main_arg0) i = (r : EReal))
    ∧ (∀ i, ∃ r : ℝ, m ((c.tc : Thread nD τ).loc main_arg1) i = (r : EReal))
    ∧ (∀ i, ∃ r : ℝ, m ((c.tc : Thread nD τ).loc main_arg2) i = (r : EReal)) := by
  -- the predicate's one word is 1: a conjunction of six "all entries finite", the first three of them ours
  have h0 := congrFun (h c) ValueIdx.ix0
  dsimp only [Cert.Pre_finite_inputs.fn, Cert.Pre_finite_inputs.fn_part1, andi] at h0
  simp only [IntOp.andi_eq_one] at h0
  obtain ⟨⟨⟨⟨⟨h3, h7⟩, h12⟩, -⟩, -⟩, -⟩ := h0
  -- each "all" gives the comparison |x i| < +∞ at every index, and that makes x i a real
  exact ⟨fun i => real_of_abs_lt_inf _ (Host.reduce_andi_all _ _ _ _ _ h3 i),
    fun i => real_of_abs_lt_inf _ (Host.reduce_andi_all _ _ _ _ _ h7 i),
    fun i => real_of_abs_lt_inf _ (Host.reduce_andi_all _ _ _ _ _ h12 i)⟩

end Cert.Proof.Finite

end
-- ==== Proof.lean ====
/-
  The certificate of the fused two-layer graph convolution against its plain reference.

  The kernel runs its 50 grid points in two passes over the 10000 × 10000 adjacency A, 400 rows at a time. The first pass
  fills a carried 10000 × 128 scratch with S = relu ((A · X) · W₁ + b₁) · W₂, one 400-row slice per point; the second computes
  relu (A · S + b₂), one 400-row block of the result per point. The reference computes relu (A · (relu (A · (X · W₁) + b₁) · W₂) + b₂).

  The three frames: each kernel program's from its launch with the scratch's contents tracked point by point (the same text at
  the word-level and at the ideal instance), the reference's from its run. The idealization rewrote nothing, so there is nothing
  to preserve. The two results are equal as extended reals because (A · X) · W₁ = A · (X · W₁) entry by entry when A, X and W₁
  are real, which is what the precondition (every float input finite) gives: both sides are then the same sums of products,
  regrouped by distributivity and a swap of the two summations.
-/
import proofs.«135945_g27754078666885_cont_9to1_584_17_alg».proof.Defs
import proofs.«135945_g27754078666885_cont_9to1_584_17_alg».proof.Proof.Gen.Kernel
import proofs.«135945_g27754078666885_cont_9to1_584_17_alg».proof.Proof.Gen.KernelIdeal
import proofs.«135945_g27754078666885_cont_9to1_584_17_alg».proof.Proof.Gen.ReferenceIdeal
import proofs.«135945_g27754078666885_cont_9to1_584_17_alg».proof.Proof.Gen.Pre_finite_inputs
import proofs.«135945_g27754078666885_cont_9to1_584_17_alg».proof.Proof.Kernel.Data
import proofs.«135945_g27754078666885_cont_9to1_584_17_alg».proof.Proof.KernelIdeal.Value
import proofs.«135945_g27754078666885_cont_9to1_584_17_alg».proof.Proof.RefValue
import proofs.«135945_g27754078666885_cont_9to1_584_17_alg».proof.Proof.Finite
import proofs.«135945_g27754078666885_cont_9to1_584_17_alg».proof.Proof.Spec
import Idealize.ShloMosaic.Adequacy
import Idealize.ShloMosaic.Init

noncomputable section

namespace Cert.Proof

open Idealize.ShloMosaic Idealize.SL.Sem

/-- The word-level kernel runs, faults nowhere, and leaves its arguments as they were. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- So does the reference: its run with the result dropped. -/
theorem frame_ri : Cert.frame_ReferenceIdeal := fun m ρ _ =>
  (θ_run Cert.ReferenceIdeal.defs _ _).mono (fun _ h c => (h c).2) (Cert.ReferenceIdeal.RefValue.ref_run m ρ)

/-- The idealization rewrote no operation. -/
theorem preserves : Cert.preserves_Kernel_KernelIdeal := trivial

/-- From memories agreeing on the arguments, the idealized kernel ends at `kernelOut` of them and the reference at `refOut`
    of them: one function when A, X and W₁ are real, which the precondition gives. -/
theorem algebraic : Cert.algebraic_KernelIdeal_ReferenceIdeal := by
  intro m ρ m' ρ' hpre hagree
  refine ⟨_, Cert.KernelIdeal.KValue.kernel_run m ρ, ?_⟩
  refine (θ_run Cert.ReferenceIdeal.defs _ _).mono (fun _ h c => ⟨(h c).1.trans ?_, (h c).2⟩)
    (Cert.ReferenceIdeal.RefValue.ref_run m' ρ')
  obtain ⟨hx, hadj, hw1⟩ := Cert.Proof.Finite.real_of_pre m hpre c
  rw [(hagree c).1, (hagree c).2.1, (hagree c).2.2.1, (hagree c).2.2.2.1, (hagree c).2.2.2.2.1, (hagree c).2.2.2.2.2]
  exact (Cert.GcnSpec.kernelOut_eq_refOut _ _ _ _ _ _ hx hadj hw1).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
